-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S400x128, .f32⟩
  | .local _ .vmem, ⟨7, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Band.lean ====
/-
  One grid step of the fused layer. Step `t` of 25 receives two consecutive 200-row bands of P (rows
  `400 t … 400 t + 199` and `400 t + 200 … 400 t + 399`, both read out of the ONE array P through two windows),
  all of X and all of W, and leaves in its 400-row output buffer, band by band, `max ((band · X) · W) 0`.
  This module states what a step leaves as a function of the four blocks it is handed (`bandOut`), proves the
  step's triple, and gives the pipeline's proof data: every input buffer holds its block at every step (the
  body stores into none of them), the output buffer holds `bandOut` of the step's blocks; the two windows on
  P hold complementary halves of P's share, so that both may read it at once and nobody may write it.
-/
import proofs.«106907_g28054726377562_cont_9to1_1452_9_alg».proof.Proof.Gen.KernelIdeal.Launch
import proofs.«106907_g28054726377562_cont_9to1_1452_9_alg».proof.Proof.Gen.KernelIdeal.Skeleton
import proofs.«106907_g28054726377562_cont_9to1_1452_9_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at step `t`, read off its array. For `w = 0, 1` the two bands of P, for `w = 2, 3`
    all of X and of W (their index maps are constant), for `w = 4` the 400 rows of the result the step owns. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What one step leaves in the output buffer -/

/-- The rectangles the body reads and writes: each input buffer whole; the output buffer's upper and lower
    200 rows. -/
abbrev rP : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rUp : Rect S400x128 := Rect.unit (s := S400x128) ![0, 0] S200x128.size inb_S400x128_S200x128_0_0
abbrev rLo : Rect S400x128 := Rect.unit (s := S400x128) ![200, 0] S200x128.size inb_S400x128_S200x128_200_0

/-- The output buffer after a step handed the bands `pa`, `pb` of P, and X and W: rows 0–199 hold
    `max ((pa · X) · W) 0` and rows 200–399 `max ((pb · X) · W) 0` (the body's two stores, the later one
    first; the arithmetic is the generated payloads `k0_pay2`, `k0_pay3`). -/
def bandOut (pa pb : Vec F S200x10000 .f32) (x : Vec F S10000x128 .f32) (w : Vec F S128x128 .f32) : Vec F S400x128 .f32 :=
  View.canon [⟨rLo, k0_pay3 (View.ld x rX) (View.ld w rW) (View.ld pb rP)⟩,
              ⟨rUp, k0_pay2 (View.ld x rX) (View.ld w rW) (View.ld pa rP)⟩]

/-- The two half-buffers make up the buffer. -/
theorem halves_cover (p1 p0 : Vec F S200x128 .f32) (y : S400x128.Idx) :
    ∃ pc ∈ ([⟨rLo, p1⟩, ⟨rUp, p0⟩] : List (View.Piece (Elt F) S400x128 .f32)), y ∈ pc.1.set :=
  View.cover_of_tiled [⟨rLo, p1⟩, ⟨rUp, p0⟩] S200x128.size (by rfl) y

/-! ## The body's triple -/

set_option maxHeartbeats 1000000 in
/-- The body on whole buffers, the four inputs' at read contents `pa pb x w` and the output's at anything, runs
    to the inputs' as they were and the output's at `bandOut pa pb x w`: it loads X, W and the upper band,
    stores the upper half, loads the lower band, stores the lower half (its two loads of the output buffer feed
    nothing). -/
theorem band_triple (c : Dev nD) (E : Set ℕ) (i : grid0.Coords)
    (a1 : Memref sig .tc .vmem S200x10000 .f32) (h1 : a1.IsWhole) (a2 : Memref sig .tc .vmem S200x10000 .f32) (h2 : a2.IsWhole)
    (a3 : Memref sig .tc .vmem S10000x128 .f32) (h3 : a3.IsWhole) (a4 : Memref sig .tc .vmem S128x128 .f32) (h4 : a4.IsWhole)
    (a5 : Memref sig .tc .vmem S400x128 .f32) (h5 : a5.IsWhole)
    (pa pb : Vec F S200x10000 .f32) (x : Vec F S10000x128 .f32) (w : Vec F S128x128 .f32) (K : PUnit → sProp 𝕄) :
    iprop(owns (c : Thread nD τ) a1 fullShare pa ∗ owns (c : Thread nD τ) a2 fullShare pb
        ∗ owns (c : Thread nD τ) a3 fullShare x ∗ owns (c : Thread nD τ) a4 fullShare w
        ∗ (∃ d, owns (c : Thread nD τ) a5 fullShare d)
        ∗ (iprop(owns (c : Thread nD τ) a1 fullShare pa ∗ owns (c : Thread nD τ) a2 fullShare pb
            ∗ owns (c : Thread nD τ) a3 fullShare x ∗ owns (c : Thread nD τ) a4 fullShare w
            ∗ owns (c : Thread nD τ) a5 fullShare (bandOut pa pb x w)) -∗ K ⟨⟩))
      ⊢ wp frame (wpE (defs₀ (F := F)) Variants.none c none) E (cc0__body i a1 h1 a2 h2 a3 h3 a4 h4 a5 h5) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (halves_cover _ _)

/-! ## The pipeline's proof data -/

/-- The proof data on core `c`. The arrays are those the region finds; every input buffer holds its block after
    the body (the body stores into none), the output buffer `bandOut` of the step's four blocks. Between steps
    the body keeps nothing: the invariant is the core's scoped buffers that are no staging buffer (there are
    none). The two windows on P hold the left and the right half of its share. Nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => bandOut (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_P_up (c : Dev nD) (t : Fin cfg0.N) : (dats m 0 c).after 0 t = iblk m c 0 t := by dsimp only [dats]
theorem after_P_lo (c : Dev nD) (t : Fin cfg0.N) : (dats m 0 c).after 1 t = iblk m c 1 t := by dsimp only [dats]
theorem after_X (c : Dev nD) (t : Fin cfg0.N) : (dats m 0 c).after 2 t = iblk m c 2 t := by dsimp only [dats]
theorem after_W (c : Dev nD) (t : Fin cfg0.N) : (dats m 0 c).after 3 t = iblk m c 3 t := by dsimp only [dats]
theorem after_out (c : Dev nD) (t : Fin cfg0.N) :
    (dats m 0 c).after 4 t = bandOut (iblk m c 0 t) (iblk m c 1 t) (iblk m c 2 t) (iblk m c 3 t) := by dsimp only [dats]

/-- An input buffer the body leaves as it found it holds the window's block at every step, fetched there or not:
    the bands of P are fetched at every step; X and W are fetched once, and their block never moves. -/
theorem before_P_up (c : Dev nD) (t : Fin cfg0.N) (d) : (dats m 0 c).before 0 t d = iblk m c 0 t :=
  ((dats m 0 c).before_in_eq_fetched 0 rfl (fun _ => rfl) (fun _ _ _ => rfl)
    (fun t => by rw [after_P_up]; unfold Dat.blockOf iblk; rw [A_eq]; try rfl) t d).trans
    (by unfold Dat.fetched Dat.blockOf iblk; rw [A_eq]; try rfl)
theorem before_P_lo (c : Dev nD) (t : Fin cfg0.N) (d) : (dats m 0 c).before 1 t d = iblk m c 1 t :=
  ((dats m 0 c).before_in_eq_fetched 1 rfl (fun _ => rfl) (fun _ _ _ => rfl)
    (fun t => by rw [after_P_lo]; unfold Dat.blockOf iblk; rw [A_eq]; try rfl) t d).trans
    (by unfold Dat.fetched Dat.blockOf iblk; rw [A_eq]; try rfl)
theorem before_X (c : Dev nD) (t : Fin cfg0.N) (d) : (dats m 0 c).before 2 t d = iblk m c 2 t :=
  ((dats m 0 c).before_in_eq_fetched 2 rfl (fun _ => rfl) (fun _ _ _ => rfl)
    (fun t => by rw [after_X]; unfold Dat.blockOf iblk; rw [A_eq]; try rfl) t d).trans
    (by unfold Dat.fetched Dat.blockOf iblk; rw [A_eq]; try rfl)
theorem before_W (c : Dev nD) (t : Fin cfg0.N) (d) : (dats m 0 c).before 3 t d = iblk m c 3 t :=
  ((dats m 0 c).before_in_eq_fetched 3 rfl (fun _ => rfl) (fun _ _ _ => rfl)
    (fun t => by rw [after_W]; unfold Dat.blockOf iblk; rw [A_eq]; try rfl) t d).trans
    (by unfold Dat.fetched Dat.blockOf iblk; rw [A_eq]; try rfl)

/-! ## The body obligation -/

/-- What the body is handed at step `t`, -/
def stepPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def stepPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at step `t`: its input buffers hold the step's blocks, so `band_triple` applies; the invariant and
    what the core owes pass through untouched. -/
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [before_P_up, before_P_lo, before_X, before_W]
  rw [show (dats m 0 c).Φ t.succ = (dats m 0 c).Φ t.castSucc from rfl,
    show (dats m 0 c).owesAt () t.succ = (dats m 0 c).owesAt () t.castSucc from rfl,
    after_P_up, after_P_lo, after_X, after_W, after_out]
  iintro ⟨HΦ, Ho, ⟨%d0, H0⟩, ⟨%d1, H1⟩, ⟨%d2, H2⟩, ⟨%d3, H3⟩, ⟨%d4, H4⟩⟩
  iapply (band_triple c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every step. -/
theorem body_obligation (c : Dev nD) : BodyObligation (dats (F := F) m 0 c) (defs₀ (F := F)) Variants.none () Set.univ := fun t => by
  rw [bigSep_W0, bigSep_W0]
  exact step_sound m c t

end Cert.KernelIdeal.Band

end
-- ==== Proof.Run.lean ====
/-
  The run of the fused layer. The program is its one region; the launch hands the region the four arrays whole.
  P is read through two windows at once, so its full share is dealt in two halves, one per window (the body
  stores into neither band, and a half share suffices to read); X, W and the result array go to their windows
  whole. From the body obligation the pipeline rule gives: every weakly fair execution terminates without a
  fault, each input array ends as it was launched, and the result array ends at what the 25 write-backs leave.
-/
import proofs.«106907_g28054726377562_cont_9to1_1452_9_alg».proof.Proof.Band

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program is the region alone, entered at the launch contents. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The distinct buffers behind the five windows are P, X, W and the result. -/
theorem arr_refs : (Finset.univ.image (Pipeline.arrRef spec0) : Finset (Ref sig .tc)) = [main_arg1, main_arg0, main_arg2, main_v0].toFinset := by
  decide

/-- One window's array, held at the window's share at the launch contents, as the pipeline's proof data state it. -/
theorem win_arr (c : Dev nD) (w : Fin cfg0.W) (b : Ref sig .tc) (q : PosShare TreeShare)
    (hb : Pipeline.arrRef spec0 w = b) (hq : (dats m 0 c).share w = q) :
    ((((c.tc : Thread nD τ).loc b) ↦{q} V m c b) : sProp 𝕄)
      ⊢ ((cfg0.win w).arr.view.loc (c.tc : Thread nD τ) ↦[(cfg0.win w).arr.view.set]{(dats m 0 c).share w} (dats m 0 c).arrAt w 0) := by
  subst hb
  rw [(arr_whole0 w).set_eq_univ, hq]
  exact .rfl

/-- Dealing the arrays to the windows: P's full share splits into the two bands' halves; the others pass whole. -/
theorem share_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg1, main_arg0, main_arg2, main_v0] arr_refs (by decide), bigSep_W0]
  simp only [bigSepL_cons_cons, bigSepL_singleton]
  show iprop((((c.tc : Thread nD τ).loc main_arg1) ↦{fullShare} V m c main_arg1) ∗ (((c.tc : Thread nD τ).loc main_arg0) ↦{fullShare} V m c main_arg0)
      ∗ (((c.tc : Thread nD τ).loc main_arg2) ↦{fullShare} V m c main_arg2) ∗ (((c.tc : Thread nD τ).loc main_v0) ↦{fullShare} V m c main_v0)) ⊢ _
  iintro ⟨HP, HX, HW, HO⟩
  ihave HP := (pointsTo_share (PosShare.mem_left_op_right fullShare)).1 $$ HP
  icases HP with ⟨HPl, HPr⟩
  isplitl [HPl]
  · iapply (win_arr m c 0 main_arg1 fullShare.left rfl rfl); iexact HPl
  isplitl [HPr]
  · iapply (win_arr m c 1 main_arg1 fullShare.right rfl rfl); iexact HPr
  isplitl [HX]
  · iapply (win_arr m c 2 main_arg0 fullShare rfl rfl); iexact HX
  isplitl [HW]
  · iapply (win_arr m c 3 main_arg2 fullShare rfl rfl); iexact HW
  iapply (win_arr m c 4 main_v0 fullShare rfl rfl); iexact HO

/-! ## The run -/

/-- Between steps the body holds only the scoped buffers that are no staging buffer. -/
theorem inv_eq (c : Dev nD) (t : Fin (cfg0.N + 1)) :
    (dats m 0 c).Φ t = Pipeline.scopedRest (Ix := Unit) (Name := ℕ) (U := UR sig nD τ) (Lvl := ℕ) (Val := Elt F) spec0 c := rfl

-- the launch theorem's implicit arguments are found by unifying its conclusion with this one, which takes unfolding
-- plain definitions in a metavariable's type
set_option backward.isDefEq.respectTransparency.types false in
/-- From any memory with zero counters, every weakly fair execution of the program terminates without a fault, and
    in every final state each window's array holds what the proof data compute: an input its launch contents, the
    result what the write-backs leave. -/
theorem run_main : θ_run defs (onTc (τ := τ) (main (F := F))) ⟨m, fun _ => 0, ρ⟩
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl (V m) (hmain m Variants.none) (share_split m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [inv_eq]; iintro ⟨-, H⟩; iexact H)
    (hout := fun c => by rw [inv_eq]; iintro H; isplitr; · iempintro
                         iexact H)
    (QY := fun _ _ => True)
    (hY := fun c s' => by iintro ⟨-, -, HSI⟩; imodintro; isplitr; · ipureintro; trivial
                          iexact HSI)
    (hQ := fun s h c => (h c).1)

/-- The frame: the three argument arrays end as they were launched (each is an input window's array). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3))⟩) (run_main m ρ)

/-- The run with the result array named: it ends at what the 25 write-backs leave of the steps' output buffers, and
    the argument arrays end as launched. -/
theorem run_result : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c 4,
     (h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3))⟩) (run_main m ρ)

end Cert.KernelIdeal.Band

end
-- ==== Proof.Payload.lean ====
/-
  The arithmetic of one stored half-band, read at an entry, over the extended reals. The body's payload for a
  200-row band `pa` of P is `max ((pa · X) · W) 0`: two matrix products into zero accumulators (the change of
  format to bf16 before the first is the identity here) and a maximum with the zero splat. Entry (r, j) is
  `max (∑ k, (∑ l, pa r l · X l k) · W k j) 0`.
-/
import proofs.«106907_g28054726377562_cont_9to1_1452_9_alg».proof.Proof.Gen.KernelIdeal.Skeleton
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The two products' operand indices, axis by axis

  Both products contract the left operand's axis 1 with the right operand's axis 0 and have no batch axis: at output
  entry `i` and contraction index `q` the left operand is read at `(i 0, q)` and the right at `(q, i 1)`. -/

theorem lhs_mm1_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_mm1_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs_mm1_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs_mm1_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

theorem lhs_mm2_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem lhs_mm2_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem rhs_mm2_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem rhs_mm2_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-! ## Each product into the zero accumulator, at an entry -/

/-- The [200,10000] × [10000,128] product into zeros: entry (r, c) is `∑ l, a r l · b l c`. -/
theorem mm1_apply (a : FVec Ideal S200x10000 .bf16) (b : FVec Ideal S10000x128 .bf16) (r : Fin 200) (c : Fin 128) :
    matmul dot_S200x10000_S10000x128_S200x128_1_0_0_1_n_n none a b (constant (F := Ideal) S200x128 .f32 0x00000000#32) (ix2 r c)
      = ∑ l : Fin 10000, a (ix2 r l) * b (ix2 l c) := by
  simp only [matmul]
  rw [Ideal.matmul_constant_zero_apply, ← Equiv.sum_comp (contrEquiv1 dot_S200x10000_S10000x128_S200x128_1_0_0_1_n_n 10000 rfl rfl).symm]
  refine Finset.sum_congr rfl fun l _ => ?_
  have hk := contrEquiv1_symm_val dot_S200x10000_S10000x128_S200x128_1_0_0_1_n_n 10000 rfl rfl l
  have el : dot_S200x10000_S10000x128_S200x128_1_0_0_1_n_n.lhsIdx (ix2 r c) ((contrEquiv1 dot_S200x10000_S10000x128_S200x128_1_0_0_1_n_n 10000 rfl rfl).symm l) = ix2 r l := funext fun d => Fin.ext (by
    match d with
    | ⟨0, _⟩ => exact lhs_mm1_0 _ _
    | ⟨1, _⟩ => exact (lhs_mm1_1 _ _).trans hk)
  have er : dot_S200x10000_S10000x128_S200x128_1_0_0_1_n_n.rhsIdx (ix2 r c) ((contrEquiv1 dot_S200x10000_S10000x128_S200x128_1_0_0_1_n_n 10000 rfl rfl).symm l) = ix2 l c := funext fun d => Fin.ext (by
    match d with
    | ⟨0, _⟩ => exact (rhs_mm1_0 _ _).trans hk
    | ⟨1, _⟩ => exact rhs_mm1_1 _ _)
  rw [el, er]

/-- The [200,128] × [128,128] product into zeros: entry (r, c) is `∑ l, a r l · b l c`. -/
theorem mm2_apply (a : FVec Ideal S200x128 .f32) (b : FVec Ideal S128x128 .f32) (r : Fin 200) (c : Fin 128) :
    matmul dot_S200x128_S128x128_S200x128_1_0_0_1_n_n none a b (constant (F := Ideal) S200x128 .f32 0x00000000#32) (ix2 r c)
      = ∑ l : Fin 128, a (ix2 r l) * b (ix2 l c) := by
  simp only [matmul]
  rw [Ideal.matmul_constant_zero_apply, ← Equiv.sum_comp (contrEquiv1 dot_S200x128_S128x128_S200x128_1_0_0_1_n_n 128 rfl rfl).symm]
  refine Finset.sum_congr rfl fun l _ => ?_
  have hk := contrEquiv1_symm_val dot_S200x128_S128x128_S200x128_1_0_0_1_n_n 128 rfl rfl l
  have el : dot_S200x128_S128x128_S200x128_1_0_0_1_n_n.lhsIdx (ix2 r c) ((contrEquiv1 dot_S200x128_S128x128_S200x128_1_0_0_1_n_n 128 rfl rfl).symm l) = ix2 r l := funext fun d => Fin.ext (by
    match d with
    | ⟨0, _⟩ => exact lhs_mm2_0 _ _
    | ⟨1, _⟩ => exact (lhs_mm2_1 _ _).trans hk)
  have er : dot_S200x128_S128x128_S200x128_1_0_0_1_n_n.rhsIdx (ix2 r c) ((contrEquiv1 dot_S200x128_S128x128_S200x128_1_0_0_1_n_n 128 rfl rfl).symm l) = ix2 l c := funext fun d => Fin.ext (by
    match d with
    | ⟨0, _⟩ => exact (rhs_mm2_0 _ _).trans hk
    | ⟨1, _⟩ => exact rhs_mm2_1 _ _)
  rw [el, er]

/-! ## The payloads -/

/-- The upper half-band's payload at entry (r, j). -/
theorem payload_up_apply (x : Vec Ideal S10000x128 .f32) (w : Vec Ideal S128x128 .f32) (pa : Vec Ideal S200x10000 .f32)
    (r : Fin 200) (j : Fin 128) :
    k0_pay2 (F := Ideal) x w pa (ix2 r j)
      = max (∑ k : Fin 128, (∑ l : Fin 10000, pa (ix2 r l) * x (ix2 l k)) * w (ix2 k j)) 0 := by
  unfold k0_pay2 k0_pay1
  rw [maximumf_apply, broadcast_apply, mm2_apply]
  simp only [mm1_apply, truncf_apply]
  exact congrArg _ Ideal.ofBits_zero_f32

/-- The lower half-band's payload at entry (r, j): the same function of its band. -/
theorem payload_lo_apply (x : Vec Ideal S10000x128 .f32) (w : Vec Ideal S128x128 .f32) (pb : Vec Ideal S200x10000 .f32)
    (r : Fin 200) (j : Fin 128) :
    k0_pay3 (F := Ideal) x w pb (ix2 r j)
      = max (∑ k : Fin 128, (∑ l : Fin 10000, pb (ix2 r l) * x (ix2 l k)) * w (ix2 k j)) 0 := by
  unfold k0_pay3 k0_pay1
  rw [maximumf_apply, broadcast_apply, mm2_apply]
  simp only [mm1_apply, truncf_apply]
  exact congrArg _ Ideal.ofBits_zero_f32

end Cert.KernelIdeal.Payload

end
-- ==== Proof.Spec.lean ====
/-
  The layer both programs compute, over the extended reals: for a feature matrix X (10000 × 128), a filter
  matrix P (10000 × 10000) and weights W (128 × 128),

      out r j = max (∑ k < 128, (∑ l < 10000, P r l · X l k) · W k j) 0 ,

  the product associated as (P · X) · W. Stated entry by entry over literal shapes, so that each side's
  sums are compared with it index by index; no law of the extended reals beyond the sums as written is used
  (both programs form (P · X) first and multiply by W afterwards).
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![10000, 128]⟩
abbrev SP : Shape := ⟨2, ![10000, 10000]⟩
abbrev SW : Shape := ⟨2, ![128, 128]⟩

/-- Entry (r, k) of the support matrix P · X. -/
def support (x : SX.Idx → EReal) (p : SP.Idx → EReal) (r : Fin 10000) (k : Fin 128) : EReal :=
  ∑ l : Fin 10000, p (ix2 r l) * x (ix2 l k)

/-- Entry (r, j) of max ((P · X) · W) 0. -/
def layerAt (x : SX.Idx → EReal) (p : SP.Idx → EReal) (w : SW.Idx → EReal) (r : Fin 10000) (j : Fin 128) : EReal :=
  max (∑ k : Fin 128, support x p r k * w (ix2 k j)) 0

/-- The layer's output array. -/
def layer (x : SX.Idx → EReal) (p : SP.Idx → EReal) (w : SW.Idx → EReal) : SX.Idx → EReal :=
  fun i => layerAt x p w (i 0) (i 1)

theorem layer_apply (x : SX.Idx → EReal) (p : SP.Idx → EReal) (w : SW.Idx → EReal) (r : Fin 10000) (j : Fin 128) :
    layer x p w (ix2 r j) = layerAt x p w r j := rfl

end Cert.Spec

end
-- ==== Proof.BandValue.lean ====
/-
  From the steps' output buffers to the result array, over the extended reals. Step `t` writes its 400-row
  output buffer back to rows `400 t … 400 t + 399` of the result; the 25 steps' blocks tile the 10000 rows, so the
  result array after the run is, entry by entry, the layer `max ((P · X) · W) 0` of the argument arrays.
-/
import proofs.«106907_g28054726377562_cont_9to1_1452_9_alg».proof.Proof.Band
import proofs.«106907_g28054726377562_cont_9to1_1452_9_alg».proof.Proof.Payload
import proofs.«106907_g28054726377562_cont_9to1_1452_9_alg».proof.Proof.Spec
import Idealize.ShloMosaic.Lib.Pipeline.Value
import Idealize.ShloMosaic.Lib.ValueIdx

set_option maxRecDepth 16384

noncomputable section

open scoped BigOperators

namespace Cert.KernelIdeal.BandValue

open Cert.KernelIdeal Cert.KernelIdeal.Gen Cert.KernelIdeal.Band
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The index maps over the grid -/

theorem zero_off : (![0, 0] : Fin 2 → Nat) = fun _ => 0 := funext fun a => by fin_cases a <;> rfl

/-- The printed index maps, decided over the 25 steps: the upper band's window sits at block row `2 t` of P and
    the lower band's at block row `2 t + 1` (blocks of 200 rows), X and W are taken whole, and the result's window
    sits at block row `t` (blocks of 400 rows). -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The blocks a step is handed, as entries of the argument arrays -/

/-- The upper band at step `t` is rows `400 t … 400 t + 199` of P. -/
theorem band_up_apply (c : Dev nD) (t : Fin cfg0.N) (r : Fin 200) (l : Fin 10000) (R : Fin 10000)
    (hR : R.val = 400 * t.val + r.val) :
    (iblk m c 0 t : Vec Ideal S200x10000 .f32) (ix2 r l)
      = (m ((c : Thread nD τ).loc main_arg1) : S10000x10000.Idx → EReal) (ix2 R l) := by
  obtain ⟨e0, e1, -⟩ := idx_facts t
  unfold iblk
  rw [View.read_apply]
  show V m c main_arg1 _ = m (c.tc.loc main_arg1) _
  unfold V
  congr 1
  funext a
  apply Fin.ext
  match a with
  | ⟨0, _⟩ => show win0_0.index t 0 * 200 + 1 * r.val = R.val; rw [e0, hR]; omega
  | ⟨1, _⟩ => show win0_0.index t 1 * 10000 + 1 * l.val = l.val; rw [e1]; omega

/-- The lower band at step `t` is rows `400 t + 200 … 400 t + 399` of P. -/
theorem band_lo_apply (c : Dev nD) (t : Fin cfg0.N) (r : Fin 200) (l : Fin 10000) (R : Fin 10000)
    (hR : R.val = 400 * t.val + 200 + r.val) :
    (iblk m c 1 t : Vec Ideal S200x10000 .f32) (ix2 r l)
      = (m ((c : Thread nD τ).loc main_arg1) : S10000x10000.Idx → EReal) (ix2 R l) := by
  obtain ⟨-, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 200 + 1 * r.val = R.val; rw [e0, hR]; omega
  | ⟨1, _⟩ => show win0_1.index t 1 * 10000 + 1 * l.val = l.val; rw [e1]; omega

/-- The third block is X at every step. -/
theorem blk_X_apply (c : Dev nD) (t : Fin cfg0.N) (l : Fin 10000) (k : Fin 128) :
    (iblk m c 2 t : Vec Ideal S10000x128 .f32) (ix2 l k)
      = (m ((c : Thread nD τ).loc main_arg0) : S10000x128.Idx → EReal) (ix2 l k) := by
  obtain ⟨-, -, -, -, e0, e1, -⟩ := idx_facts t
  unfold iblk
  rw [View.read_apply]
  show V m c main_arg0 _ = m (c.tc.loc main_arg0) _
  unfold V
  congr 1
  funext a
  apply Fin.ext
  match a with
  | ⟨0, _⟩ => show win0_2.index t 0 * 10000 + 1 * l.val = l.val; rw [e0]; omega
  | ⟨1, _⟩ => show win0_2.index t 1 * 128 + 1 * k.val = k.val; rw [e1]; omega

/-- The fourth block is W at every step. -/
theorem blk_W_apply (c : Dev nD) (t : Fin cfg0.N) (k : Fin 128) (j : Fin 128) :
    (iblk m c 3 t : Vec Ideal S128x128 .f32) (ix2 k j)
      = (m ((c : Thread nD τ).loc main_arg2) : S128x128.Idx → EReal) (ix2 k j) := by
  obtain ⟨-, -, -, -, -, -, e0, e1, -⟩ := idx_facts t
  unfold iblk
  rw [View.read_apply]
  show V m c main_arg2 _ = m (c.tc.loc main_arg2) _
  unfold V
  congr 1
  funext a
  apply Fin.ext
  match a with
  | ⟨0, _⟩ => show win0_3.index t 0 * 128 + 1 * k.val = k.val; rw [e0]; omega
  | ⟨1, _⟩ => show win0_3.index t 1 * 128 + 1 * j.val = j.val; rw [e1]; omega

/-! ## The output buffer at an entry -/

/-- Off the last store's rectangle, two stores leave what the earlier one alone leaves. -/
theorem canon_pair_of_not_mem {S : Shape} {e : EltTy} {Val : EltTy → Type} [∀ e, Nonempty (Val e)]
    (r1 r2 : Rect S) (w1 : r1.shape.Idx → Val e) (w2 : r2.shape.Idx → Val e) (y : S.Idx) (h : y ∉ r1.set) :
    View.canon [(⟨r1, w1⟩ : View.Piece Val S e), ⟨r2, w2⟩] y = View.canon [(⟨r2, w2⟩ : View.Piece Val S e)] y :=
  View.canon_cons_of_not_mem _ _ h

/-- An entry of the upper 200 rows of the output buffer is the upper store's payload: the later, lower store's
    rectangle starts at row 200 and misses it. -/
theorem bandOut_up (pa pb : Vec Ideal S200x10000 .f32) (x : Vec Ideal S10000x128 .f32) (w : Vec Ideal S128x128 .f32)
    (y : S400x128.Idx) (r : Fin 200) (j : Fin 128) (h0 : (y 0).val = r.val) (h1 : (y 1).val = j.val) :
    bandOut pa pb x w y
      = max (∑ k : Fin 128, (∑ l : Fin 10000, pa (ix2 r l) * x (ix2 l k)) * w (ix2 k j)) 0 := by
  have hmiss : y ∉ (rLo).set := by
    rw [Rect.mem_set_unit]
    intro h
    have h200 : 200 ≤ (y 0).val := (h 0).1
    have hr : r.val < 200 := r.isLt
    omega
  have hy : y = (rUp).emb (ix2 r j) := by
    funext a
    apply Fin.ext
    match a with
    | ⟨0, _⟩ => show (y 0).val = 0 + 1 * r.val; omega
    | ⟨1, _⟩ => show (y 1).val = 0 + 1 * j.val; omega
  unfold bandOut
  refine (canon_pair_of_not_mem rLo rUp _ _ y hmiss).trans ?_
  rw [hy, View.canon_cons_emb]
  rw [View.ld_unit_zero (S := S10000x128) zero_off, View.ld_unit_zero (S := S128x128) zero_off,
    View.ld_unit_zero (S := S200x10000) zero_off]
  exact Payload.payload_up_apply x w pa r j

/-- An entry of the lower 200 rows is the lower store's payload, the last store made. -/
theorem bandOut_lo (pa pb : Vec Ideal S200x10000 .f32) (x : Vec Ideal S10000x128 .f32) (w : Vec Ideal S128x128 .f32)
    (y : S400x128.Idx) (r : Fin 200) (j : Fin 128) (h0 : (y 0).val = 200 + r.val) (h1 : (y 1).val = j.val) :
    bandOut pa pb x w y
      = max (∑ k : Fin 128, (∑ l : Fin 10000, pb (ix2 r l) * x (ix2 l k)) * w (ix2 k j)) 0 := by
  have hy : y = (rLo).emb (ix2 r j) := by
    funext a
    apply Fin.ext
    match a with
    | ⟨0, _⟩ => show (y 0).val = 200 + 1 * r.val; omega
    | ⟨1, _⟩ => show (y 1).val = 0 + 1 * j.val; omega
  unfold bandOut
  rw [hy, View.canon_cons_emb]
  rw [View.ld_unit_zero (S := S10000x128) zero_off, View.ld_unit_zero (S := S128x128) zero_off,
    View.ld_unit_zero (S := S200x10000) zero_off]
  exact Payload.payload_lo_apply x w pb r j

/-- The output buffer of a step whose bands are rows `400 s …` and `400 s + 200 …` of a matrix `P`, at the entry
    `y`, is the layer's entry at row `400 s + y 0` and column `y 1`. -/
theorem bandOut_eq_layerAt (pa pb : Vec Ideal S200x10000 .f32) (x : Vec Ideal S10000x128 .f32) (w : Vec Ideal S128x128 .f32)
    (P : Cert.Spec.SP.Idx → EReal) (s : Nat) (y : S400x128.Idx) (R : Fin 10000) (j : Fin 128)
    (hpa : ∀ (r : Fin 200) (l R' : Fin 10000), R'.val = 400 * s + r.val → pa (ix2 r l) = P (ix2 R' l))
    (hpb : ∀ (r : Fin 200) (l R' : Fin 10000), R'.val = 400 * s + 200 + r.val → pb (ix2 r l) = P (ix2 R' l))
    (hR : R.val = 400 * s + (y 0).val) (hj : j.val = (y 1).val) :
    bandOut pa pb x w y = Cert.Spec.layerAt x P w R j := by
  have hy0 : (y 0).val < 400 := idx2_lt0 y
  unfold Cert.Spec.layerAt Cert.Spec.support
  by_cases h : (y 0).val < 200
  · rw [bandOut_up pa pb x w y ⟨(y 0).val, h⟩ j rfl hj.symm]
    congr 1
    refine Finset.sum_congr rfl fun k _ => ?_
    congr 1
    refine Finset.sum_congr rfl fun l _ => ?_
    rw [hpa ⟨(y 0).val, h⟩ l R hR]
  · rw [bandOut_lo pa pb x w y ⟨(y 0).val - 200, by omega⟩ j (by show (y 0).val = 200 + ((y 0).val - 200); omega) hj.symm]
    congr 1
    refine Finset.sum_congr rfl fun k _ => ?_
    congr 1
    refine Finset.sum_congr rfl fun l _ => ?_
    rw [hpb ⟨(y 0).val - 200, by omega⟩ l R (by show R.val = 400 * s + 200 + ((y 0).val - 200); omega)]

/-! ## What a step writes back, the cover, and the result array -/

/-- What step `t` writes back is the layer of the argument arrays read through block `t` of the result: the
    output buffer's entry `y` lands at row `400 t + y 0`, column `y 1`, and the step's bands are those rows of P. -/
theorem flushed_eq (c : Dev nD) (t : Fin cfg0.N) :
    (dats (F := Ideal) m 0 c).flushed 4 t
      = ((cfg0.win 4).blk t).view.read (Elt Ideal)
          (Cert.Spec.layer (m ((c.tc : Thread nD τ).loc main_arg0)) (m ((c.tc : Thread nD τ).loc main_arg1))
            (m ((c.tc : Thread nD τ).loc main_arg2))) := by
  show (cfg0.win 4).cut (grid0.coords t) ((dats (F := Ideal) m 0 c).after 4 t) = _
  rw [after_out]
  obtain ⟨-, -, -, -, -, -, -, -, e0, e1⟩ := idx_facts t
  funext y
  show bandOut (iblk m c 0 t) (iblk m c 1 t) (iblk m c 2 t) (iblk m c 3 t) ((cfg0.win 4).xinj (grid0.coords t) y)
      = Cert.Spec.layerAt (m ((c.tc : Thread nD τ).loc main_arg0)) (m ((c.tc : Thread nD τ).loc main_arg1))
          (m ((c.tc : Thread nD τ).loc main_arg2)) ((((cfg0.win 4).blk t).view.emb y) 0) ((((cfg0.win 4).blk t).view.emb y) 1)
  have hX : (iblk m c 2 t : Vec Ideal S10000x128 .f32) = m ((c.tc : Thread nD τ).loc main_arg0) := by
    funext i; rw [eq_ix2 i]; exact blk_X_apply m c t (i 0) (i 1)
  have hW : (iblk m c 3 t : Vec Ideal S128x128 .f32) = m ((c.tc : Thread nD τ).loc main_arg2) := by
    funext i; rw [eq_ix2 i]; exact blk_W_apply m c t (i 0) (i 1)
  rw [hX, hW]
  refine bandOut_eq_layerAt (iblk m c 0 t) (iblk m c 1 t) _ _ (m ((c.tc : Thread nD τ).loc main_arg1)) t.val _ _ _
    (fun r l R' h => band_up_apply m c t r l R' h) (fun r l R' h => band_lo_apply m c t r l R' h) ?_ ?_
  · show win0_4.index t (0 : Fin 2) * 400 + 1 * (y 0).val = 400 * t.val + (y 0).val
    rw [e0]; omega
  · show win0_4.index t (1 : Fin 2) * 128 + 1 * (y 1).val = (y 1).val
    rw [e1]; omega

/-- An entry of the result is in step `t`'s block iff each coordinate is in the block's range on its axis. -/
theorem mem_blk (t : Fin cfg0.N) (i : S10000x128.Idx) :
    i ∈ ((cfg0.win 4).blk t).view.set
      ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- The 25 blocks of 400 rows tile the 10000 rows: row `r` is written back by step `r / 400`. -/
theorem cover (i : S10000x128.Idx) :
    ∃ t : Fin cfg0.N, (cfg0.win 4).flush t = true ∧ i ∈ ((cfg0.win 4).blk t).view.set := by
  have hi0 : (i 0).val < 10000 := idx2_lt0 i
  have hi1 : (i 1).val < 128 := idx2_lt1 i
  have hN : cfg0.N = 25 := N_0
  let t : Fin cfg0.N := ⟨(i 0).val / 400, by rw [hN]; omega⟩
  obtain ⟨-, -, -, -, -, -, -, -, e0, e1⟩ := idx_facts t
  have ht : t.val = (i 0).val / 400 := rfl
  refine ⟨t, flush0_4 t, ?_⟩
  rw [mem_blk]
  intro a
  match a with
  | ⟨0, _⟩ =>
    show win0_4.index t (0 : Fin 2) * 400 ≤ (i 0).val ∧ (i 0).val < win0_4.index t (0 : Fin 2) * 400 + 400
    rw [e0, ht]; omega
  | ⟨1, _⟩ =>
    show win0_4.index t (1 : Fin 2) * 128 ≤ (i 1).val ∧ (i 1).val < win0_4.index t (1 : Fin 2) * 128 + 128
    rw [e1]; omega

/-- The result array after the last step is the layer of the argument arrays. -/
theorem final_eq (c : Dev nD) :
    (dats (F := Ideal) m 0 c).arrAt 4 cfg0.N
      = Cert.Spec.layer (m ((c.tc : Thread nD τ).loc main_arg0)) (m ((c.tc : Thread nD τ).loc main_arg1))
          (m ((c.tc : Thread nD τ).loc main_arg2)) :=
  (dats (F := Ideal) m 0 c).arrAt_eq_of_cover 4 _ (fun t _ => flushed_eq m c t) cover

end Cert.KernelIdeal.BandValue

end
-- ==== Proof.RefValue.lean ====
/-
  The reference's result, entry by entry, is the layer: its two host products are the sums `∑ l, P r l · X l k`
  and `∑ k, (P · X) r k · W k j`, and its relu is the maximum with the broadcast zero.
-/
import proofs.«106907_g28054726377562_cont_9to1_1452_9_alg».proof.Proof.Gen.ReferenceIdeal.Read
import proofs.«106907_g28054726377562_cont_9to1_1452_9_alg».proof.Proof.Spec

noncomputable section

open scoped BigOperators

namespace Cert.ReferenceIdeal.RefValue

open Cert.ReferenceIdeal Cert.ReferenceIdeal.Gen Idealize.ShloMosaic Idealize.ShloMosaic.ValueIdx

/-! ## The products' operand indices at an entry given by its coordinates

Each stage reads its operands at indices built from the output index `i` and the summation index. At
`i = (r, j)` these are the pairs one expects: `(r, l)` and `(l, k)` for the first product `P · X` at `(r, k)`,
`(r, k)` and `(k, j)` for the second product `(P · X) · W` at `(r, j)`. -/

/-- First product at entry `(r, k)`, term `l`: the left operand `P` is read at `(r, l)`. -/
theorem lidx_v0 (r : Fin 10000) (k : Fin 128) (l : Fin 10000) :
    Read.lidx_main_v0 (ix2 r k) l = ix2 r l :=
  funext fun a => Fin.ext (by match a with | ⟨0, _⟩ => rfl | ⟨1, _⟩ => rfl)

/-- First product at entry `(r, k)`, term `l`: the right operand `X` is read at `(l, k)`. -/
theorem ridx_v0 (r : Fin 10000) (k : Fin 128) (l : Fin 10000) :
    Read.ridx_main_v0 (ix2 r k) l = ix2 l k :=
  funext fun a => Fin.ext (by match a with | ⟨0, _⟩ => rfl | ⟨1, _⟩ => rfl)

/-- Second product at entry `(r, j)`, term `k`: the left operand `P · X` is read at `(r, k)`. -/
theorem lidx_v1 (r : Fin 10000) (j : Fin 128) (k : Fin 128) :
    Read.lidx_main_v1 (ix2 r j) k = ix2 r k :=
  funext fun a => Fin.ext (by match a with | ⟨0, _⟩ => rfl | ⟨1, _⟩ => rfl)

/-- Second product at entry `(r, j)`, term `k`: the right operand `W` is read at `(k, j)`. -/
theorem ridx_v1 (r : Fin 10000) (j : Fin 128) (k : Fin 128) :
    Read.ridx_main_v1 (ix2 r j) k = ix2 k j :=
  funext fun a => Fin.ext (by match a with | ⟨0, _⟩ => rfl | ⟨1, _⟩ => rfl)

/-! ## The stages at an entry -/

/-- Entry `(r, k)` of the first product is the support `∑ l, P r l · X l k`. -/
theorem v0_at (x0 : (⟨S10000x128, .f32⟩ : BufTy).Contents (Elt Ideal)) (x1 : (⟨S10000x10000, .f32⟩ : BufTy).Contents (Elt Ideal))
    (r : Fin 10000) (k : Fin 128) :
    Read.val_main_v0 (F := Ideal) x0 x1 (ix2 r k) = Cert.Spec.support x0 x1 r k := by
  rw [Read.val_main_v0_apply]
  unfold Cert.Spec.support
  refine Finset.sum_congr rfl fun l _ => ?_
  rw [lidx_v0, ridx_v0]

/-- Entry `(r, j)` of the second product is `∑ k, support r k · W k j`. -/
theorem v1_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (r : Fin 10000) (j : Fin 128) :
    Read.val_main_v1 (F := Ideal) x0 x1 x2 (ix2 r j) = ∑ k : Fin 128, Cert.Spec.support x0 x1 r k * x2 (ix2 k j) := by
  rw [Read.val_main_v1_apply]
  refine Finset.sum_congr rfl fun k _ => ?_
  rw [lidx_v1, ridx_v1, v0_at]

/-- Every entry of the broadcast constant is the real number zero. -/
theorem zero_at (i : S10000x128.Idx) : Read.val_main_call0_v0 (F := Ideal) i = (0 : EReal) := by
  rw [Read.val_main_call0_v0_apply, Read.val_main_call0_cst_apply]
  exact Ideal.ofBits_zero_f32

/-- The reference's last stage is the layer of its arguments. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    Cert.ReferenceIdeal.Read.val_main_v2 (F := Ideal) x0 x1 x2 = Cert.Spec.layer x0 x1 x2 := by
  funext i
  obtain ⟨r, j, rfl⟩ : ∃ (r : Fin 10000) (j : Fin 128), i = ix2 r j := ⟨i 0, i 1, eq_ix2 i⟩
  rw [Read.val_main_v2_apply, v1_at, zero_at, Cert.Spec.layer_apply]
  rfl

end Cert.ReferenceIdeal.RefValue

end
-- ==== Proof.lean ====
/-
  The fused layer relu ((P · X) · W) as one pipelined kernel — 25 grid steps, each taking two 200-row bands of P
  through two windows on the one array P, with X and W resident — against the reference's two host products and
  relu. Over the extended reals both compute, entry by entry, max (∑ k, (∑ l, P r l · X l k) · W k j) 0: the
  kernel's change of format to bf16 is the identity there, its matrix products into zero accumulators are the
  plain sums, and both sides associate the product as (P · X) · W, so no law beyond the sums as written is needed
  and the precondition is never opened.
  The kernel's run (at the word level and at the ideal values alike): the body's triple, the pipeline's proof data
  with P's share dealt in halves to its two windows, and the launch (Proof/Band.lean, Proof/Run.lean; for the
  word-level program the same text at its namespace). The result array after the run is the layer
  (Proof/Payload.lean, Proof/BandValue.lean); the reference's run is its generated one, read stage by stage
  (Proof/RefValue.lean).
-/
import proofs.«106907_g28054726377562_cont_9to1_1452_9_alg».proof.Defs
import proofs.«106907_g28054726377562_cont_9to1_1452_9_alg».proof.Proof.Gen.Kernel
import proofs.«106907_g28054726377562_cont_9to1_1452_9_alg».proof.Proof.Gen.KernelIdeal
import proofs.«106907_g28054726377562_cont_9to1_1452_9_alg».proof.Proof.Gen.ReferenceIdeal
import proofs.«106907_g28054726377562_cont_9to1_1452_9_alg».proof.Proof.Gen.Pre_finite_inputs
import proofs.«106907_g28054726377562_cont_9to1_1452_9_alg».proof.Proof.Gen.ReferenceIdeal.Run
import proofs.«106907_g28054726377562_cont_9to1_1452_9_alg».proof.Proof.Gen.ReferenceIdeal.Read
import proofs.«106907_g28054726377562_cont_9to1_1452_9_alg».proof.Proof.RunBits
import proofs.«106907_g28054726377562_cont_9to1_1452_9_alg».proof.Proof.Run
import proofs.«106907_g28054726377562_cont_9to1_1452_9_alg».proof.Proof.BandValue
import proofs.«106907_g28054726377562_cont_9to1_1452_9_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Band.frame (F := Bits) m ρ

/-- So does the kernel at the ideal values. -/
theorem frame_ki : Cert.frame_KernelIdeal := fun m ρ _ => Cert.KernelIdeal.Band.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs, run from memories that agree on X, P and W, end with the same result array: the layer. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.BandValue.final_eq m c), (h c).2⟩)
      (Cert.KernelIdeal.Band.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v2_eq, Cert.ReferenceIdeal.RefValue.ref_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
